-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S12288x4096 : Shape := ⟨2, ![12288, 4096]⟩
abbrev S12288 : Shape := ⟨1, ![12288]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S12288x4096 .f32) (main_arg2 : FVec F S12288 .f32) (main_arg3 : FVec F S4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4x2048x4096 : Shape := ⟨3, ![4, 2048, 4096]⟩
abbrev S12288x4096 : Shape := ⟨2, ![12288, 4096]⟩
abbrev S12288 : Shape := ⟨1, ![12288]⟩
abbrev S4096 : Shape := ⟨1, ![4096]⟩
abbrev S8192x4096 : Shape := ⟨2, ![8192, 4096]⟩
abbrev S1x4096 : Shape := ⟨2, ![1, 4096]⟩
abbrev S1x12288 : Shape := ⟨2, ![1, 12288]⟩
abbrev S512x4096 : Shape := ⟨2, ![512, 4096]⟩
abbrev S8192x12288 : Shape := ⟨2, ![8192, 12288]⟩
abbrev S128x4096 : Shape := ⟨2, ![128, 4096]⟩
abbrev S3072x4096 : Shape := ⟨2, ![3072, 4096]⟩
abbrev S1x3072 : Shape := ⟨2, ![1, 3072]⟩
abbrev S128x3072 : Shape := ⟨2, ![128, 3072]⟩
abbrev S128 : Shape := ⟨1, ![128]⟩
abbrev S128x1 : Shape := ⟨2, ![128, 1]⟩
abbrev S4x2048x12288 : Shape := ⟨3, ![4, 2048, 12288]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S12288x4096, .f32⟩
  | .hbm, ⟨2, _⟩ => ⟨S12288, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S1x4096, .f32⟩
  | .hbm, ⟨8, _⟩ => ⟨S1x12288, .f32⟩
  | .hbm, ⟨9, _⟩ => ⟨S12288x4096, .bf16⟩
  | .hbm, ⟨10, _⟩ => ⟨S8192x12288, .f32⟩
  | .hbm, ⟨11, _⟩ => ⟨S4x2048x12288, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S3072x4096, .bf16⟩
  | .local _ .vmem, ⟨9, _⟩ => ⟨S1x3072, .f32⟩
  | .local _ .vmem, ⟨10, _⟩ => ⟨S128x3072, .f32⟩
  | .local _ .vmem, ⟨11, _⟩ => ⟨S128x3072, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S3072x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 1 → Memref sig .tc .vmem S1x3072 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 2 → Memref sig .tc .vmem S128x3072 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x4096_S8192x4096 : S4x2048x4096.ShapeCasts S8192x4096
  shapeCasts_S4096_S1x4096 : S4096.ShapeCasts S1x4096
  shapeCasts_S12288_S1x12288 : S12288.ShapeCasts S1x12288
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  broadcasts_S128x1_S128x4096 : S128x1.Broadcasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S3072x4096_S3072x4096_0_0 : ∀ a, (![0, 0] : Fin 2 → Nat) a + S3072x4096.size a ≤ S3072x4096.size a
  h_S3072x4096 : 0 < S3072x4096.numel
  shapeCasts_S3072x4096_S3072x4096 : S3072x4096.ShapeCasts S3072x4096
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S128x3072 : S1x3072.Broadcasts S128x3072
  inb_S128x3072_S128x3072_0_0 : ∀ a, (![0, 0] : Fin 2 → Nat) a + S128x3072.size a ≤ S128x3072.size a
  h_S128x3072 : 0 < S128x3072.numel
  shapeCasts_S8192x12288_S4x2048x12288 : S8192x12288.ShapeCasts S4x2048x12288
  dot_S128x4096_S3072x4096_S128x3072_1_1_0_0_n_n_wf : DotDims.WF S128x4096 S3072x4096 S128x3072 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S12288x4096.size a
  hwx0_0 : ∀ i : grid0.Coords, EltTy.bits .f32 = 32 ∨ (Rect.block (s := S12288x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S12288x4096.size a
  hwx0_1 : ∀ i : grid0.Coords, EltTy.bits .bf16 = 32 ∨ (Rect.block (s := S12288x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072x4096.size a ≤ S12288x4096.size a
  hwx1_3 : ∀ i : grid1.Coords, EltTy.bits .bf16 = 32 ∨ (Rect.block (s := S12288x4096) S3072x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3072.size a ≤ S1x12288.size a
  hwx1_4 : ∀ i : grid1.Coords, EltTy.bits .f32 = 32 ∨ (Rect.block (s := S1x12288) S1x3072.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x3072.size a ≤ S8192x12288.size a
  hwx1_5 : ∀ i : grid1.Coords, EltTy.bits .f32 = 32 ∨ (Rect.block (s := S8192x12288) S128x3072.size (cc1_transform_5 i) (hinb1_5 i)).WholeWords (EltTy.packing .f32)

variable [Facts₀]

def dot_S128x4096_S3072x4096_S128x3072_1_1_0_0_n_n : DotDims S128x4096 S3072x4096 S128x3072 where
  lhsContracting := [1]
  rhsContracting := [1]
  lhsNonContracting := [0]
  rhsNonContracting := [0]
  lhsBatch := []
  rhsBatch := []
  wf := dot_S128x4096_S3072x4096_S128x3072_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S3072x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x3072.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S128x3072.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S12288x4096 : Shape := ⟨2, ![12288, 4096]⟩
abbrev S12288 : Shape := ⟨1, ![12288]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x12288 : Shape := ⟨3, ![4, 2048, 12288]⟩
abbrev S1x1x12288 : Shape := ⟨3, ![1, 1, 12288]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S12288x4096, .f32⟩
  | .hbm, ⟨2, _⟩ => ⟨S12288, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x4096, .f32⟩
  | .hbm, ⟨27, _⟩ => ⟨S4x2048x4096, .f32⟩
  | .hbm, ⟨28, _⟩ => ⟨S1x1x4096, .f32⟩
  | .hbm, ⟨29, _⟩ => ⟨S4x2048x4096, .f32⟩
  | .hbm, ⟨30, _⟩ => ⟨S4x2048x4096, .f32⟩
  | .hbm, ⟨31, _⟩ => ⟨S1x1x4096, .f32⟩
  | .hbm, ⟨32, _⟩ => ⟨S4x2048x4096, .f32⟩
  | .hbm, ⟨33, _⟩ => ⟨S4x2048x4096, .f32⟩
  | .hbm, ⟨34, _⟩ => ⟨S4x2048x12288, .f32⟩
  | .hbm, ⟨35, _⟩ => ⟨S1x1x12288, .f32⟩
  | .hbm, ⟨36, _⟩ => ⟨S4x2048x12288, .f32⟩
  | .hbm, ⟨37, _⟩ => ⟨S4x2048x12288, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S12288_S1x1x12288_2 : S12288.BroadcastsInDim S1x1x12288 (![2] : Fin 1 → Fin S1x1x12288.rank)
  bcast_S1x1x12288_S4x2048x12288_0_1_2 : S1x1x12288.BroadcastsInDim S4x2048x12288 (![0, 1, 2] : Fin 3 → Fin S4x2048x12288.rank)
  dot_S4x2048x4096_S12288x4096_S4x2048x12288_2_1_01_0_n_n_wf : DotDims.WF S4x2048x4096 S12288x4096 S4x2048x12288 [2] [1] [0, 1] [0] [] []

variable [Facts₀]

def dot_S4x2048x4096_S12288x4096_S4x2048x12288_2_1_01_0_n_n : DotDims S4x2048x4096 S12288x4096 S4x2048x12288 where
  lhsContracting := [2]
  rhsContracting := [1]
  lhsNonContracting := [0, 1]
  rhsNonContracting := [0]
  lhsBatch := []
  rhsBatch := []
  wf := dot_S4x2048x4096_S12288x4096_S4x2048x12288_2_1_01_0_n_n_wf

class Facts : Prop extends Facts₀ where

variable [Facts]
-- ==== Proof.Spec.lean ====
/-
  Layer normalisation of a row followed by a linear map, entry by entry on the extended reals.

  For a row `xr` of 4096 numbers: its mean is the row sum divided by 4096, its variance the mean of the squared
  deviations, and the normalised row is each deviation times `1 / √(variance + ε)`, scaled by `γ` and shifted by
  `β`. One output entry is the inner product of the normalised row with a row `wr` of the weight matrix, plus a bias.
  The divisor 4096 and `ε` are kept as the values their single-precision words denote; nothing here evaluates them.

  The whole result: entry `(b, s, o)` is that number for row `(b, s)` of the input and row `o` of the weights.
-/
import Idealize.ShloMosaic.PureOps.Ideal
import Idealize.ShloMosaic.Lib.ValueIdx

noncomputable section

namespace Cert.LayerNormLinear

open Idealize.ShloMosaic Idealize.ShloMosaic.ValueIdx

/-- The row length 4096, as the value of its single-precision word. -/
abbrev width : EReal := Ideal.ofBits .f32 0x45800000#32
/-- The stabiliser added to the variance, as the value of its single-precision word. -/
abbrev eps : EReal := Ideal.ofBits .f32 0x3727C5AC#32

/-- The mean of a row. -/
def mean (xr : Fin 4096 → EReal) : EReal := Ideal.div (∑ k : Fin 4096, xr k) width

/-- A row's deviation from its mean at position `k`. -/
def centred (xr : Fin 4096 → EReal) (k : Fin 4096) : EReal := xr k - mean xr

/-- The mean of the squared deviations. -/
def variance (xr : Fin 4096 → EReal) : EReal := Ideal.div (∑ k : Fin 4096, centred xr k * centred xr k) width

/-- The reciprocal of the stabilised standard deviation. -/
def invStd (xr : Fin 4096 → EReal) : EReal := Ideal.rsqrt (variance xr + eps)

/-- The normalised row, scaled and shifted, at position `k`. -/
def normed (xr γ β : Fin 4096 → EReal) (k : Fin 4096) : EReal := centred xr k * invStd xr * γ k + β k

/-- One output entry: the normalised row against a weight row, plus the bias. -/
def entry (xr γ β wr : Fin 4096 → EReal) (b : EReal) : EReal := (∑ k : Fin 4096, normed xr γ β k * wr k) + b

/-- The whole result over the three-axis input: entry `(b, s, o)` reads row `(b, s)` of `x` and row `o` of `w`. -/
def result (x : (⟨3, ![4, 2048, 4096]⟩ : Shape).Idx → EReal) (w : (⟨2, ![12288, 4096]⟩ : Shape).Idx → EReal)
    (bias : (⟨1, ![12288]⟩ : Shape).Idx → EReal) (γ β : (⟨1, ![4096]⟩ : Shape).Idx → EReal) :
    (⟨3, ![4, 2048, 12288]⟩ : Shape).Idx → EReal :=
  fun i => entry (fun k => x (ix3 (i 0) (i 1) k)) (fun k => γ (ix1 k)) (fun k => β (ix1 k))
    (fun k => w (ix2 (i 2) k)) (bias (ix1 (i 2)))

/-- The same over the input laid out as 8192 rows: entry `(r, o)` reads row `r` of `x2` and row `o` of `w`. The scale,
    shift and bias arrive as one-row matrices. -/
def resultRows (x2 : (⟨2, ![8192, 4096]⟩ : Shape).Idx → EReal) (γ2 β2 : (⟨2, ![1, 4096]⟩ : Shape).Idx → EReal)
    (w : (⟨2, ![12288, 4096]⟩ : Shape).Idx → EReal) (bias2 : (⟨2, ![1, 12288]⟩ : Shape).Idx → EReal) :
    (⟨2, ![8192, 12288]⟩ : Shape).Idx → EReal :=
  fun i => entry (fun k => x2 (ix2 (i 0) k)) (fun k => γ2 (ix2 0 k)) (fun k => β2 (ix2 0 k))
    (fun k => w (ix2 (i 1) k)) (bias2 (ix2 0 (i 1)))

end Cert.LayerNormLinear

end
-- ==== Proof.LibRowsByRows.lean ====
/-
  A matrix product whose right operand is stored row by row against the left operand's rows.

  For an `M × K` array `lhs` and an `N × K` array `rhs`, both contracted on their last axis (the product
  `lhs · rhsᵀ`), the entry at row `r` and column `j` of the result is `∑ k, lhs (r, k) · rhs (j, k)` on the
  extended reals: the same sum whether the product is accumulated into a zero array or has no accumulator at all.
  Nothing depends on the three extents, so a product over a tile and a product over whole arrays read the same way.
-/
import Idealize.ShloMosaic.Lib.ValueIdx
import Idealize.ShloMosaic.PureOps.Ideal.Laws

noncomputable section

namespace Cert.LibRowsByRows

open Idealize.ShloMosaic Idealize.ShloMosaic.ValueIdx

variable {M K N : ℕ}

/-- The left operand is read on the result's row. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from fun h => nomatch h),
    dif_pos (show (0 : Fin (⟨2, ![M, K]⟩ : Shape).rank) ∈ (DotDims.transposedRhs M K N).lhsNonContracting from List.mem_singleton.mpr rfl)]
  rfl

/-- Its column is the position in the contraction. -/
theorem lhs_col (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand is read on the row numbered by the result's column. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from fun h => nomatch h),
    dif_pos (show (0 : Fin (⟨2, ![N, K]⟩ : Shape).rank) ∈ (DotDims.transposedRhs M K N).rhsNonContracting from List.mem_singleton.mpr rfl)]
  rfl

/-- Its column too is the position in the contraction. -/
theorem rhs_col (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The sum over the contraction positions, re-indexed by the contracted coordinate `k : Fin K`: the operands are
    read at (r, k) and (j, k). -/
theorem sum_eq {φ₁ φ₂ : FTy} (lhs : FVec Ideal ⟨2, ![M, K]⟩ φ₁) (rhs : FVec Ideal ⟨2, ![N, K]⟩ φ₂) (r : Fin M) (j : Fin N) :
    (∑ q : (DotDims.transposedRhs M K N).contr.Idx,
        lhs ((DotDims.transposedRhs M K N).lhsIdx (ix2 r j) q) * rhs ((DotDims.transposedRhs M K N).rhsIdx (ix2 r j) q))
      = ∑ k : Fin K, lhs (ix2 r k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r j) ((contrEquiv1 (DotDims.transposedRhs M K N) K rfl rfl).symm k) = ix2 r k :=
    funext fun a => Fin.ext (by
      match a with
      | ⟨0, _⟩ => exact lhs_row _ _
      | ⟨1, _⟩ => exact (lhs_col _ _).trans hk)
  have er : (DotDims.transposedRhs M K N).rhsIdx (ix2 r j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- The product accumulated into a zero array, read at (r, j). The dimension numbers may be any record that IS the
    rows-by-rows one. -/
theorem matmul_zero_apply {φ₁ φ₂ : FTy} (d : DotDims ⟨2, ![M, K]⟩ ⟨2, ![N, K]⟩ ⟨2, ![M, N]⟩)
    (hd : d = DotDims.transposedRhs M K N) (prec : Option ContractPrecision) (lhs : FVec Ideal ⟨2, ![M, K]⟩ φ₁)
    (rhs : FVec Ideal ⟨2, ![N, K]⟩ φ₂) (r : Fin M) (j : Fin N) :
    matmul d prec lhs rhs (constant (F := Ideal) ⟨2, ![M, N]⟩ .f32 0x00000000#32) (ix2 r j)
      = ∑ k : Fin K, lhs (ix2 r k) * rhs (ix2 j k) := by
  subst hd
  show FloatOps.matmul (DotDims.transposedRhs M K N) prec lhs rhs (constant ⟨2, ![M, N]⟩ .f32 0x00000000#32) (ix2 r j) = _
  rw [Ideal.matmul_constant_zero_apply]
  exact sum_eq lhs rhs r j

/-- The host's product with no accumulator, read at (r, j). -/
theorem dotGeneral_apply {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (r : Fin M) (j : Fin N) :
    FloatOps.dotGeneral d prec sched lhs rhs (ix2 r j) = ∑ k : Fin K, lhs (ix2 r k) * rhs (ix2 j k) := by
  subst hd
  rw [Ideal.dotGeneral_apply]
  exact sum_eq lhs rhs r j

end Cert.LibRowsByRows

end
-- ==== Proof.FusedPayload.lean ====
/-
  What the two kernel bodies store, read at one index.

  The first body stores its input tile unchanged (a change of float format is the identity on the extended reals).
  The second body normalises each of the 128 rows of its input tile and contracts the result with the 3072 weight rows of
  its weight tile. Row by row it forms the row sum, the mean, the deviations, the mean of their squares, the reciprocal
  root of that plus `ε`; scales by `γ` and shifts by `β`; and entry `(p, q)` of what it stores is the inner product of
  normalised row `p` with weight row `q`, plus bias entry `q`: the specification's `entry` of those rows.
-/
import proofs.«132008_j73375221285154_1_alg».proof.Proof.Gen.KernelIdeal.Skeleton
import proofs.«132008_j73375221285154_1_alg».proof.Proof.Spec
import proofs.«132008_j73375221285154_1_alg».proof.Proof.LibRowsByRows
import Idealize.ShloMosaic.Lib.Pipeline.Value
import Idealize.ShloMosaic.Lib.ValueLayout
import Idealize.ShloMosaic.PureOps.Ideal.Laws

noncomputable section

namespace Cert.LayerNormLinear.Payload

open Idealize.ShloMosaic Idealize.ShloMosaic.ValueIdx
open Cert.KernelIdeal Cert.KernelIdeal.Gen Cert.LayerNormLinear

/-! ## Two layout reads: a vector as a column, and a column spread along rows -/

section Layout
variable {α : Type}

/-- A vector cast to a one-column matrix reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix broadcast along its rows reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The first body -/

/-- The stored tile is the loaded tile. -/
theorem cast_apply (v0 : Vec Ideal S512x4096 .f32) (i : S512x4096.Idx) : k0_pay1 (F := Ideal) v0 i = v0 i := rfl

/-! ## The second body, stage by stage -/

/-- A lane sum of a 128 × 4096 tile at row `p` is the sum of that row. -/
theorem rowSum_apply (v : FVec Ideal S128x4096 .f32) (h : S128x4096.Reduces [1] S128) (hφ : FKind.Formats .f32)
    (hacc : (0x00000000#32 : BitVec 32) = FKind.add.neutral .f32 hφ) (p : Fin 128) :
    multiReduction .add [1] S128 v 0x00000000#32 h hφ hacc (ix1 p) = ∑ k : Fin 4096, v (ix2 p k) :=
  (Ideal.multiReduction_add_single v 0x00000000#32 h hφ hacc (ix1 p)).trans
    (Finset.sum_congr rfl fun k _ => congrArg v (funext fun a => Fin.ext (by
      match a with
      | ⟨0, _⟩ => rfl
      | ⟨1, _⟩ => rfl)))

/-- The column of row means of a tile. -/
def meanCol (v : FVec Ideal S128x4096 .f32) : FVec Ideal S128x1 .f32 :=
  divf (shapeCast S128x1 (multiReduction .add [1] S128 v 0x00000000#32 reduces_S128x4096_S128 (.inl rfl) rfl) shapeCasts_S128_S128x1)
    (broadcast S128x1 (Scalar.ofBits .f32 0x45800000#32))

theorem meanCol_apply (v : FVec Ideal S128x4096 .f32) (p : Fin 128) (u : Fin 1) :
    meanCol v (ix2 p u) = mean (fun k => v (ix2 p k)) := by
  unfold meanCol mean
  show Ideal.div (shapeCast S128x1 _ shapeCasts_S128_S128x1 (ix2 p u)) (Ideal.ofBits .f32 0x45800000#32) = _
  rw [shapeCast_a_a1_apply]
  exact congrArg (fun s => Ideal.div s width) (rowSum_apply v reduces_S128x4096_S128 (.inl rfl) rfl p)

/-- The tile minus its row means. -/
def devs (v : FVec Ideal S128x4096 .f32) : FVec Ideal S128x4096 .f32 :=
  subf v (broadcastTo S128x4096 (meanCol v) broadcasts_S128x1_S128x4096)

theorem devs_apply (v : FVec Ideal S128x4096 .f32) (p : Fin 128) (k : Fin 4096) :
    devs v (ix2 p k) = centred (fun k => v (ix2 p k)) k := by
  unfold devs centred
  show v (ix2 p k) - broadcastTo S128x4096 (meanCol v) broadcasts_S128x1_S128x4096 (ix2 p k) = _
  rw [broadcastTo_a1_ab_apply, meanCol_apply]

/-- The column of reciprocal stabilised standard deviations. -/
def invCol (v : FVec Ideal S128x4096 .f32) : FVec Ideal S128x1 .f32 :=
  rsqrt (addf (divf (shapeCast S128x1 (multiReduction .add [1] S128 (mulf (devs v) (devs v)) 0x00000000#32 reduces_S128x4096_S128 (.inl rfl) rfl) shapeCasts_S128_S128x1)
      (broadcast S128x1 (Scalar.ofBits .f32 0x45800000#32)))
    (broadcast S128x1 (Scalar.ofBits .f32 0x3727C5AC#32)))

theorem invCol_apply (v : FVec Ideal S128x4096 .f32) (p : Fin 128) (u : Fin 1) :
    invCol v (ix2 p u) = invStd (fun k => v (ix2 p k)) := by
  unfold invCol invStd variance
  show Ideal.rsqrt (Ideal.div (shapeCast S128x1 _ shapeCasts_S128_S128x1 (ix2 p u)) (Ideal.ofBits .f32 0x45800000#32)
    + Ideal.ofBits .f32 0x3727C5AC#32) = _
  rw [shapeCast_a_a1_apply]
  refine congrArg (fun s => Ideal.rsqrt (Ideal.div s width + eps))
    ((rowSum_apply (mulf (devs v) (devs v)) reduces_S128x4096_S128 (.inl rfl) rfl p).trans ?_)
  simp only [mulf_apply, devs_apply]

/-- The normalised tile, scaled by the row `g` and shifted by the row `be`. -/
def normedMat (v : FVec Ideal S128x4096 .f32) (g be : FVec Ideal S1x4096 .f32) : FVec Ideal S128x4096 .f32 :=
  addf (mulf (mulf (devs v) (broadcastTo S128x4096 (invCol v) broadcasts_S128x1_S128x4096))
      (broadcastTo S128x4096 g broadcasts_S1x4096_S128x4096))
    (broadcastTo S128x4096 be broadcasts_S1x4096_S128x4096)

theorem normedMat_apply (v : FVec Ideal S128x4096 .f32) (g be : FVec Ideal S1x4096 .f32) (p : Fin 128) (k : Fin 4096) :
    normedMat v g be (ix2 p k)
      = normed (fun k => v (ix2 p k)) (fun k => g (ix2 (0 : Fin 1) k)) (fun k => be (ix2 (0 : Fin 1) k)) k := by
  unfold normedMat normed
  show devs v (ix2 p k) * broadcastTo S128x4096 (invCol v) broadcasts_S128x1_S128x4096 (ix2 p k)
      * broadcastTo S128x4096 g broadcasts_S1x4096_S128x4096 (ix2 p k)
    + broadcastTo S128x4096 be broadcasts_S1x4096_S128x4096 (ix2 p k) = _
  rw [devs_apply, broadcastTo_a1_ab_apply, invCol_apply, broadcastTo_1b_ab_apply, broadcastTo_1b_ab_apply]

/-- The stored tile is the product of the normalised tile with the weight tile's rows, plus the bias row. -/
theorem fused_eq (v0 : FVec Ideal S128x4096 .f32) (v18 v22 : FVec Ideal S1x4096 .f32) (v27 : FVec Ideal S3072x4096 .bf16)
    (v30 : FVec Ideal S1x3072 .f32) :
    k1_pay1 (F := Ideal) v0 v18 v22 v27 v30
      = addf (matmul dot_S128x4096_S3072x4096_S128x3072_1_1_0_0_n_n none
            (truncf .bf16 (normedMat (shapeCast S128x4096 v0 shapeCasts_S128x4096_S128x4096)
              (shapeCast S1x4096 v18 shapeCasts_S1x4096_S1x4096) (shapeCast S1x4096 v22 shapeCasts_S1x4096_S1x4096)) bitsLt_bf16_f32)
            (shapeCast S3072x4096 v27 shapeCasts_S3072x4096_S3072x4096) (constant S128x3072 .f32 0x00000000#32))
          (broadcastTo S128x3072 (shapeCast S1x3072 v30 shapeCasts_S1x3072_S1x3072) broadcasts_S1x3072_S128x3072) := rfl

/-- Entry `(p, q)` of the stored tile. -/
theorem fused_apply (v0 : FVec Ideal S128x4096 .f32) (v18 v22 : FVec Ideal S1x4096 .f32) (v27 : FVec Ideal S3072x4096 .bf16)
    (v30 : FVec Ideal S1x3072 .f32) (p : Fin 128) (q : Fin 3072) :
    k1_pay1 (F := Ideal) v0 v18 v22 v27 v30 (ix2 p q)
      = entry (fun k => v0 (ix2 p k)) (fun k => v18 (ix2 (0 : Fin 1) k)) (fun k => v22 (ix2 (0 : Fin 1) k))
          (fun k => v27 (ix2 q k)) (v30 (ix2 (0 : Fin 1) q)) := by
  rw [fused_eq]
  simp only [shapeCast_self]
  unfold entry
  rw [addf_apply, broadcastTo_1b_ab_apply]
  refine congrArg (· + v30 (ix2 (0 : Fin 1) q)) ?_
  refine (LibRowsByRows.matmul_zero_apply (M := 128) (K := 4096) (N := 3072)
    dot_S128x4096_S3072x4096_S128x3072_1_1_0_0_n_n rfl none _ _ p q).trans ?_
  refine Finset.sum_congr rfl fun k _ => ?_
  rw [truncf_apply, normedMat_apply]

end Cert.LayerNormLinear.Payload

end
-- ==== Proof.RegionValues.lean ====
/-
  From blocks to arrays: what each of the two regions leaves in its output array.

  The first region walks the 24 row blocks of the weight matrix, 512 rows each, and writes every block back as it
  read it: its output array ends equal to its input array.

  The second region walks a 4 × 64 grid. Point `(n, mb)` reads rows `128·mb …` of the input, the whole scale and shift
  rows, weight rows `3072·n …` and bias entries `3072·n …`, and writes the 128 × 3072 block at `(mb, n)` of the output.
  Entry `(p, q)` of that block is the specification's entry for input row `128·mb + p` and weight row `3072·n + q`, so
  the block is a restriction of ONE whole-array function; the 256 blocks tile the 8192 × 12288 output, so the output array
  ends equal to that function.
-/
import proofs.«132008_j73375221285154_1_alg».proof.Proof.Gen.KernelIdeal.Frame
import proofs.«132008_j73375221285154_1_alg».proof.Proof.FusedPayload
import Idealize.ShloMosaic.Lib.Pipeline.Value

set_option maxRecDepth 16384

noncomputable section

namespace Cert.LayerNormLinear.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LayerNormLinear

variable (V : (c : Dev nD) → (b : Ref sig .tc) → Buf (Elt Ideal) ((c : Thread nD τ).loc b))

/-- Every body access starts at the tile's origin. -/
theorem origin_zero : (![0, 0] : Fin 2 → Nat) = fun _ => 0 := funext fun a => by fin_cases a <;> rfl

/-! ## The first region: the weight matrix copied block by block -/

/-- The input and the output window move together down the rows; neither moves along the columns. -/
theorem castIdx : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 23 :=
  (by decide +kernel : ∀ t : Fin grid0.N, _)

/-- Every row block is some point's. -/
theorem castOnto : ∀ q0 : Fin 24, ∃ t : Fin cfg0.N, win0_1.index t = ![q0.val, 0] :=
  (by decide +kernel : ∀ q0 : Fin 24, ∃ t : Fin grid0.N, win0_1.index t = ![q0.val, 0])

/-- The weight matrix as the first region finds it, read as an array of the output's element type. -/
abbrev castG (c : Dev nD) : Buf (Elt Ideal) ((cfg0.win 1).arr.view.loc (c.tc : Thread nD τ)) :=
  fun i => V c main_arg1 i

/-- What point `t` writes back is block `t` of the weight matrix. -/
theorem cast_flushed (c : Dev nD) (t : Fin cfg0.N) :
    (dat0 (F := Ideal) V c).flushed 1 t = ((cfg0.win 1).blk t).view.read (Elt Ideal) (castG V c) := by
  show (cfg0.win 1).cut (grid0.coords t) ((dat0 (F := Ideal) V c).after 1 t) = _
  rw [after0_1]
  unfold out0_1
  rw [View.canon_unit_zero origin_zero]
  simp only [View.ld_unit_zero (S := S512x4096) origin_zero]
  obtain ⟨e0, e1, e2, -⟩ := castIdx t
  funext j
  show V c main_arg1 (((cfg0.win 0).blk t).view.emb j) = V c main_arg1 (((cfg0.win 1).blk t).view.emb j)
  refine congrArg (V c main_arg1) (funext fun a => Fin.ext ?_)
  match a with
  | ⟨0, _⟩ => show win0_0.index t (0 : Fin 2) * 512 + 1 * (j 0).val = win0_1.index t (0 : Fin 2) * 512 + 1 * (j 0).val; omega
  | ⟨1, _⟩ => show win0_0.index t (1 : Fin 2) * 4096 + 1 * (j 1).val = win0_1.index t (1 : Fin 2) * 4096 + 1 * (j 1).val; omega

/-- An index is in point `t`'s block iff each coordinate is in the block's range on its axis. -/
theorem cast_mem (t : Fin cfg0.N) (i : S12288x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v4).slice (win0_1.rect t)).set ↔ _
  rw [View.set_slice_whole, Rect.mem_set_unit]
  exact Iff.rfl

/-- The 24 blocks cover the matrix: row `r` is in block `r / 512`. -/
theorem cast_cover (i : S12288x4096.Idx) :
    ∃ t : Fin cfg0.N, (cfg0.win 1).flush t = true ∧ i ∈ ((cfg0.win 1).blk t).view.set := by
  have hi0 : (i 0).val < 12288 := (i 0).isLt
  have hi1 : (i 1).val < 4096 := (i 1).isLt
  obtain ⟨t, ht⟩ := castOnto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [cast_mem]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- THE FIRST REGION'S OUTPUT ARRAY after the region: the weight matrix as the region found it. -/
theorem cast_array (c : Dev nD) : (dat0 (F := Ideal) V c).arrAt 1 cfg0.N = castG V c :=
  (dat0 (F := Ideal) V c).arrAt_eq_of_cover 1 (castG V c) (fun t _ => cast_flushed V c t) (cast_cover)

/-! ## The second region: normalise and contract, block by block -/

/-- One stored entry against the whole arrays: if the loaded tiles agree with the arrays on the rows and columns the
    entry reads, the entry is the whole-array function at `(r, o)`. -/
theorem point_eq (A0 : FVec Ideal S8192x4096 .f32) (A1 A2 : FVec Ideal S1x4096 .f32) (A3 : FVec Ideal S12288x4096 .bf16)
    (A4 : FVec Ideal S1x12288 .f32)
    (x0 : FVec Ideal S128x4096 .f32) (x1 x2 : FVec Ideal S1x4096 .f32) (x3 : FVec Ideal S3072x4096 .bf16) (x4 : FVec Ideal S1x3072 .f32)
    (r : Fin 8192) (o : Fin 12288) (p : Fin 128) (q : Fin 3072)
    (h0 : ∀ k : Fin 4096, x0 (ix2 p k) = A0 (ix2 r k)) (h1 : ∀ k : Fin 4096, x1 (ix2 (0 : Fin 1) k) = A1 (ix2 (0 : Fin 1) k))
    (h2 : ∀ k : Fin 4096, x2 (ix2 (0 : Fin 1) k) = A2 (ix2 (0 : Fin 1) k)) (h3 : ∀ k : Fin 4096, x3 (ix2 q k) = A3 (ix2 o k))
    (h4 : x4 (ix2 (0 : Fin 1) q) = A4 (ix2 (0 : Fin 1) o)) :
    k1_pay1 (F := Ideal) x0 x1 x2 x3 x4 (ix2 p q) = resultRows A0 A1 A2 A3 A4 (ix2 r o) := by
  rw [Payload.fused_apply, funext h0, funext h1, funext h2, funext h3, h4]
  rfl

/-- How the six windows move over the grid: the input rows with the output's row blocks, the weight rows and the bias
    entries with the output's column blocks, the scale and shift rows not at all. -/
theorem fusedIdx : ∀ t : Fin cfg1.N, win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = win1_5.index t (1 : Fin 2) ∧ win1_3.index t (1 : Fin 2) = 0
    ∧ win1_4.index t (0 : Fin 2) = 0 ∧ win1_4.index t (1 : Fin 2) = win1_5.index t (1 : Fin 2)
    ∧ win1_5.index t (0 : Fin 2) ≤ 63 ∧ win1_5.index t (1 : Fin 2) ≤ 3 :=
  (by decide +kernel : ∀ t : Fin grid1.N, _)

/-- Every block of the output is some point's. -/
theorem fusedOnto : ∀ (q0 : Fin 64) (q1 : Fin 4), ∃ t : Fin cfg1.N, win1_5.index t = ![q0.val, q1.val] :=
  (by decide +kernel : ∀ (q0 : Fin 64) (q1 : Fin 4), ∃ t : Fin grid1.N, win1_5.index t = ![q0.val, q1.val])

/-- The whole-array function of the five arrays the second region reads, as it finds them. -/
abbrev fusedG (c : Dev nD) : Buf (Elt Ideal) ((cfg1.win 5).arr.view.loc (c.tc : Thread nD τ)) :=
  resultRows (V c main_v0) (V c main_v1) (V c main_v2) (fun i => V c main_v4 i) (V c main_v3)

/-- What point `t` writes back is block `t` of that function. -/
theorem fused_flushed (c : Dev nD) (t : Fin cfg1.N) :
    (dat1 (F := Ideal) V c).flushed 5 t = ((cfg1.win 5).blk t).view.read (Elt Ideal) (fusedG V c) := by
  show (cfg1.win 5).cut (grid1.coords t) ((dat1 (F := Ideal) V c).after 5 t) = _
  rw [after1_5]
  unfold out1_5
  rw [View.canon_unit_zero origin_zero]
  simp only [View.ld_unit_zero (S := S128x4096) origin_zero, View.ld_unit_zero (S := S1x4096) origin_zero,
    View.ld_unit_zero (S := S3072x4096) origin_zero, View.ld_unit_zero (S := S1x3072) origin_zero]
  obtain ⟨e0, e1, e2, e3, e4, e5, e6, e7, e8, e9, b0, b1⟩ := fusedIdx t
  funext j
  obtain ⟨p, q, rfl⟩ : ∃ (p : Fin 128) (q : Fin 3072), j = ix2 p q := ⟨j 0, j 1, eq_ix2 j⟩
  have hemb : ((cfg1.win 5).blk t).view.emb (ix2 p q)
      = ix2 (⟨win1_5.index t (0 : Fin 2) * 128 + p.val, by omega⟩ : Fin 8192) (⟨win1_5.index t (1 : Fin 2) * 3072 + q.val, by omega⟩ : Fin 12288) :=
    funext fun a => Fin.ext (by
      match a with
      | ⟨0, _⟩ => show win1_5.index t (0 : Fin 2) * 128 + 1 * p.val = win1_5.index t (0 : Fin 2) * 128 + p.val; omega
      | ⟨1, _⟩ => show win1_5.index t (1 : Fin 2) * 3072 + 1 * q.val = win1_5.index t (1 : Fin 2) * 3072 + q.val; omega)
  show k1_pay1 (F := Ideal) (iblk1 V c 0 t) (iblk1 V c 1 t) (iblk1 V c 2 t) (iblk1 V c 3 t) (iblk1 V c 4 t) (ix2 p q)
    = fusedG V c (((cfg1.win 5).blk t).view.emb (ix2 p q))
  rw [hemb]
  refine point_eq (V c main_v0) (V c main_v1) (V c main_v2) (fun i => V c main_v4 i) (V c main_v3)
    (iblk1 V c 0 t) (iblk1 V c 1 t) (iblk1 V c 2 t) (iblk1 V c 3 t) (iblk1 V c 4 t) _ _ p q ?_ ?_ ?_ ?_ ?_
  · intro k
    show V c main_v0 (((cfg1.win 0).blk t).view.emb (ix2 p k)) = V c main_v0 _
    refine congrArg (V c main_v0) (funext fun a => Fin.ext ?_)
    match a with
    | ⟨0, _⟩ => show win1_0.index t (0 : Fin 2) * 128 + 1 * p.val = win1_5.index t (0 : Fin 2) * 128 + p.val; omega
    | ⟨1, _⟩ => show win1_0.index t (1 : Fin 2) * 4096 + 1 * k.val = k.val; omega
  · intro k
    show V c main_v1 (((cfg1.win 1).blk t).view.emb (ix2 (0 : Fin 1) k)) = V c main_v1 _
    refine congrArg (V c main_v1) (funext fun a => Fin.ext ?_)
    match a with
    | ⟨0, _⟩ => show win1_1.index t (0 : Fin 2) * 1 + 1 * 0 = 0; omega
    | ⟨1, _⟩ => show win1_1.index t (1 : Fin 2) * 4096 + 1 * k.val = k.val; omega
  · intro k
    show V c main_v2 (((cfg1.win 2).blk t).view.emb (ix2 (0 : Fin 1) k)) = V c main_v2 _
    refine congrArg (V c main_v2) (funext fun a => Fin.ext ?_)
    match a with
    | ⟨0, _⟩ => show win1_2.index t (0 : Fin 2) * 1 + 1 * 0 = 0; omega
    | ⟨1, _⟩ => show win1_2.index t (1 : Fin 2) * 4096 + 1 * k.val = k.val; omega
  · intro k
    show V c main_v4 (((cfg1.win 3).blk t).view.emb (ix2 q k)) = V c main_v4 _
    refine congrArg (V c main_v4) (funext fun a => Fin.ext ?_)
    match a with
    | ⟨0, _⟩ => show win1_3.index t (0 : Fin 2) * 3072 + 1 * q.val = win1_5.index t (1 : Fin 2) * 3072 + q.val; omega
    | ⟨1, _⟩ => show win1_3.index t (1 : Fin 2) * 4096 + 1 * k.val = k.val; omega
  · show V c main_v3 (((cfg1.win 4).blk t).view.emb (ix2 (0 : Fin 1) q)) = V c main_v3 _
    refine congrArg (V c main_v3) (funext fun a => Fin.ext ?_)
    match a with
    | ⟨0, _⟩ => show win1_4.index t (0 : Fin 2) * 1 + 1 * 0 = 0; omega
    | ⟨1, _⟩ => show win1_4.index t (1 : Fin 2) * 3072 + 1 * q.val = win1_5.index t (1 : Fin 2) * 3072 + q.val; omega

/-- An index is in point `t`'s block iff each coordinate is in the block's range on its axis. -/
theorem fused_mem (t : Fin cfg1.N) (i : S8192x12288.Idx) :
    i ∈ ((cfg1.win 5).blk t).view.set ↔ ∀ a : Fin 2, win1_5.index t a * S128x3072.size a ≤ (i a).val ∧ (i a).val < win1_5.index t a * S128x3072.size a + S128x3072.size a := by
  show i ∈ ((View.whole main_v5).slice (win1_5.rect t)).set ↔ _
  rw [View.set_slice_whole, Rect.mem_set_unit]
  exact Iff.rfl

/-- The 256 blocks cover the output: entry `(r, o)` is in block `(r / 128, o / 3072)`. -/
theorem fused_cover (i : S8192x12288.Idx) :
    ∃ t : Fin cfg1.N, (cfg1.win 5).flush t = true ∧ i ∈ ((cfg1.win 5).blk t).view.set := by
  have hi0 : (i 0).val < 8192 := (i 0).isLt
  have hi1 : (i 1).val < 12288 := (i 1).isLt
  obtain ⟨t, ht⟩ := fusedOnto ⟨(i 0).val / 128, by omega⟩ ⟨(i 1).val / 3072, by omega⟩
  have q0 : win1_5.index t (0 : Fin 2) = (i 0).val / 128 := congrFun ht 0
  have q1 : win1_5.index t (1 : Fin 2) = (i 1).val / 3072 := congrFun ht 1
  refine ⟨t, flush1_5 t, ?_⟩
  rw [fused_mem]
  intro a
  match a with
  | ⟨0, _⟩ => show win1_5.index t (0 : Fin 2) * 128 ≤ (i 0).val ∧ (i 0).val < win1_5.index t (0 : Fin 2) * 128 + 128; omega
  | ⟨1, _⟩ => show win1_5.index t (1 : Fin 2) * 3072 ≤ (i 1).val ∧ (i 1).val < win1_5.index t (1 : Fin 2) * 3072 + 3072; omega

/-- THE SECOND REGION'S OUTPUT ARRAY after the region: the whole-array function of the arrays it read. -/
theorem fused_array (c : Dev nD) : (dat1 (F := Ideal) V c).arrAt 5 cfg1.N = fusedG V c :=
  (dat1 (F := Ideal) V c).arrAt_eq_of_cover 5 (fusedG V c) (fun t _ => fused_flushed V c t) (fused_cover)

end Cert.LayerNormLinear.Regions

end
-- ==== Proof.SpecRows.lean ====
/-
  The row layout against the three-axis layout.

  Flattening the first two axes of the input sends `(b, s, k)` to `(2048·b + s, k)`; the scale, the shift and the bias
  become one-row matrices; and the 8192 × 12288 result is read back at `(b, s, o)` as its entry `(2048·b + s, o)`. All of
  these keep an element's row-major position, so the row-layout result of the flattened arrays, reshaped, is the
  three-axis result of the arrays themselves.
-/
import proofs.«132008_j73375221285154_1_alg».proof.Proof.Spec
import Idealize.ShloMosaic.Lib.Pipeline.Value
import Idealize.ShloMosaic.Lib.ValueLayout

noncomputable section

namespace Cert.LayerNormLinear

open Idealize.ShloMosaic Idealize.ShloMosaic.ValueIdx

/-- The flattened row of `(b, s)`. -/
abbrev flatRow (b : Fin 4) (s : Fin 2048) : Fin 8192 := ⟨b.val * 2048 + s.val, by have := b.isLt; have := s.isLt; omega⟩

theorem result_of_rows (x : (⟨3, ![4, 2048, 4096]⟩ : Shape).Idx → EReal) (w : (⟨2, ![12288, 4096]⟩ : Shape).Idx → EReal)
    (bias : (⟨1, ![12288]⟩ : Shape).Idx → EReal) (γ β : (⟨1, ![4096]⟩ : Shape).Idx → EReal)
    (hx : (⟨3, ![4, 2048, 4096]⟩ : Shape).ShapeCasts ⟨2, ![8192, 4096]⟩)
    (hγ hβ : (⟨1, ![4096]⟩ : Shape).ShapeCasts ⟨2, ![1, 4096]⟩)
    (hb : (⟨1, ![12288]⟩ : Shape).ShapeCasts ⟨2, ![1, 12288]⟩)
    (ho : (⟨2, ![8192, 12288]⟩ : Shape).ShapeCasts ⟨3, ![4, 2048, 12288]⟩) :
    shapeCast ⟨3, ![4, 2048, 12288]⟩
        (resultRows (shapeCast ⟨2, ![8192, 4096]⟩ x hx) (shapeCast ⟨2, ![1, 4096]⟩ γ hγ) (shapeCast ⟨2, ![1, 4096]⟩ β hβ) w
          (shapeCast ⟨2, ![1, 12288]⟩ bias hb)) ho
      = result x w bias γ β := by
  funext i
  obtain ⟨b, s, o, rfl⟩ : ∃ (b : Fin 4) (s : Fin 2048) (o : Fin 12288), i = ix3 b s o := ⟨i 0, i 1, i 2, eq_ix3 i⟩
  rw [shapeCast_apply _ ho (ix3 b s o) (ix2 (flatRow b s) o) (by
    rw [Shape.rowMajor_val_two, Shape.rowMajor_val_three]
    show (b.val * 2048 + s.val) * 12288 + o.val = (b.val * 2048 + s.val) * 12288 + o.val
    rfl)]
  unfold resultRows result
  have ex : (fun k : Fin 4096 => shapeCast ⟨2, ![8192, 4096]⟩ x hx (ix2 (flatRow b s) k)) = fun k => x (ix3 b s k) :=
    funext fun k => shapeCast_apply x hx (ix2 (flatRow b s) k) (ix3 b s k) (by
      rw [Shape.rowMajor_val_two, Shape.rowMajor_val_three]
      show (b.val * 2048 + s.val) * 4096 + k.val = (b.val * 2048 + s.val) * 4096 + k.val
      rfl)
  have eγ : (fun k : Fin 4096 => shapeCast ⟨2, ![1, 4096]⟩ γ hγ (ix2 (0 : Fin 1) k)) = fun k => γ (ix1 k) :=
    funext fun k => shapeCast_a_1a_apply γ hγ 0 k
  have eβ : (fun k : Fin 4096 => shapeCast ⟨2, ![1, 4096]⟩ β hβ (ix2 (0 : Fin 1) k)) = fun k => β (ix1 k) :=
    funext fun k => shapeCast_a_1a_apply β hβ 0 k
  show entry (fun k => shapeCast ⟨2, ![8192, 4096]⟩ x hx (ix2 (flatRow b s) k))
      (fun k => shapeCast ⟨2, ![1, 4096]⟩ γ hγ (ix2 (0 : Fin 1) k)) (fun k => shapeCast ⟨2, ![1, 4096]⟩ β hβ (ix2 (0 : Fin 1) k))
      (fun k => w (ix2 o k)) (shapeCast ⟨2, ![1, 12288]⟩ bias hb (ix2 (0 : Fin 1) o))
    = entry (fun k => x (ix3 b s k)) (fun k => γ (ix1 k)) (fun k => β (ix1 k)) (fun k => w (ix2 o k)) (bias (ix1 o))
  rw [ex, eγ, eβ, shapeCast_a_1a_apply bias hb 0 o]

end Cert.LayerNormLinear

end
-- ==== Proof.KernelValue.lean ====
/-
  The kernel program's result array as one function of its five arguments.

  Before the regions the program flattens the input to 8192 rows and turns the scale, the shift and the bias into
  one-row matrices; the first region leaves a copy of the weight matrix; the second leaves the row-layout result of those
  five arrays; and the last operation reads that 8192 × 12288 array back with three axes. Walking the contents at the
  four boundaries back to the launch memory, the result array is the specification's three-axis result of the arguments.
-/
import proofs.«132008_j73375221285154_1_alg».proof.Proof.Gen.KernelIdeal.Frame
import proofs.«132008_j73375221285154_1_alg».proof.Proof.RegionValues
import proofs.«132008_j73375221285154_1_alg».proof.Proof.SpecRows
import Idealize.ShloMosaic.Lib.StableHlo.Run

set_option maxRecDepth 16384

noncomputable section

namespace Cert.LayerNormLinear.KernelValue

open Idealize.ShloMosaic Idealize.ShloMosaic.TcCoe Idealize.ShloMosaic.ValueIdx Idealize.ShloMosaic.StableHlo
open Idealize.SL Idealize.SL.Sem
open Cert.KernelIdeal Cert.KernelIdeal.Gen Cert.LayerNormLinear

variable (m : (ℓ : Loc nD τ sig) → Buf (Elt Ideal) ℓ) (ρ : Dev nD → PrngReg) (c : Dev nD)

/-! ## The contents when the first region is entered -/

theorem entry_rows : W1 m ρ c (Proc.devRef .tc main_v0)
    = shapeCast S8192x4096 (m ((c : Thread nD τ).loc main_arg0)) shapeCasts_S4x2048x4096_S8192x4096 := by
  show StableHlo.after hostOps0 (W0 m ρ c) (Proc.devRef .tc main_v0) = _
  after_results
  rfl

theorem entry_scale : W1 m ρ c (Proc.devRef .tc main_v1)
    = shapeCast S1x4096 (m ((c : Thread nD τ).loc main_arg3)) shapeCasts_S4096_S1x4096 := by
  show StableHlo.after hostOps0 (W0 m ρ c) (Proc.devRef .tc main_v1) = _
  after_results
  rfl

theorem entry_shift : W1 m ρ c (Proc.devRef .tc main_v2)
    = shapeCast S1x4096 (m ((c : Thread nD τ).loc main_arg4)) shapeCasts_S4096_S1x4096 := by
  show StableHlo.after hostOps0 (W0 m ρ c) (Proc.devRef .tc main_v2) = _
  after_results
  rfl

theorem entry_bias : W1 m ρ c (Proc.devRef .tc main_v3)
    = shapeCast S1x12288 (m ((c : Thread nD τ).loc main_arg2)) shapeCasts_S12288_S1x12288 := by
  show StableHlo.after hostOps0 (W0 m ρ c) (Proc.devRef .tc main_v3) = _
  after_results
  rfl

theorem entry_weight : W1 m ρ c (Proc.devRef .tc main_arg1) = m ((c : Thread nD τ).loc main_arg1) := by
  show StableHlo.after hostOps0 (W0 m ρ c) (Proc.devRef .tc main_arg1) = _
  after_results

/-! ## The contents when the second region is entered -/

theorem mid_rows : V2 m ρ c main_v0 = shapeCast S8192x4096 (m ((c : Thread nD τ).loc main_arg0)) shapeCasts_S4x2048x4096_S8192x4096 :=
  (W2_of_ne m ρ c main_v0 (by decide)).trans (entry_rows m ρ c)
theorem mid_scale : V2 m ρ c main_v1 = shapeCast S1x4096 (m ((c : Thread nD τ).loc main_arg3)) shapeCasts_S4096_S1x4096 :=
  (W2_of_ne m ρ c main_v1 (by decide)).trans (entry_scale m ρ c)
theorem mid_shift : V2 m ρ c main_v2 = shapeCast S1x4096 (m ((c : Thread nD τ).loc main_arg4)) shapeCasts_S4096_S1x4096 :=
  (W2_of_ne m ρ c main_v2 (by decide)).trans (entry_shift m ρ c)
theorem mid_bias : V2 m ρ c main_v3 = shapeCast S1x12288 (m ((c : Thread nD τ).loc main_arg2)) shapeCasts_S12288_S1x12288 :=
  (W2_of_ne m ρ c main_v3 (by decide)).trans (entry_bias m ρ c)

/-- The first region's output array holds the weight matrix. -/
theorem mid_weight : (fun i => V2 m ρ c main_v4 i) = fun i => m ((c : Thread nD τ).loc main_arg1) i := by
  have h1 : V2 m ρ c main_v4 = (dat0 (F := Ideal) (V1 m ρ) c).arrAt 1 cfg0.N := W2_arr m ρ c 1
  have h2 := Regions.cast_array (V1 m ρ) c
  have h3 : V1 m ρ c main_arg1 = m ((c : Thread nD τ).loc main_arg1) := entry_weight m ρ c
  funext i
  rw [h1, h2]
  show V1 m ρ c main_arg1 i = _
  rw [h3]

/-! ## The result array -/

/-- The row-layout result depends on the weight matrix only through its entries. -/
theorem resultRows_congr_weight {x2 : (⟨2, ![8192, 4096]⟩ : Shape).Idx → EReal} {γ2 β2 : (⟨2, ![1, 4096]⟩ : Shape).Idx → EReal}
    {w w' : (⟨2, ![12288, 4096]⟩ : Shape).Idx → EReal} {bias2 : (⟨2, ![1, 12288]⟩ : Shape).Idx → EReal} (h : w = w') :
    resultRows x2 γ2 β2 w bias2 = resultRows x2 γ2 β2 w' bias2 := by rw [h]

/-- The second region's output array holds the row-layout result of the flattened arguments. -/
theorem rows_array : W3 m ρ c (Proc.devRef .tc main_v5)
    = resultRows (shapeCast S8192x4096 (m ((c : Thread nD τ).loc main_arg0)) shapeCasts_S4x2048x4096_S8192x4096)
        (shapeCast S1x4096 (m ((c : Thread nD τ).loc main_arg3)) shapeCasts_S4096_S1x4096)
        (shapeCast S1x4096 (m ((c : Thread nD τ).loc main_arg4)) shapeCasts_S4096_S1x4096)
        (fun i => m ((c : Thread nD τ).loc main_arg1) i)
        (shapeCast S1x12288 (m ((c : Thread nD τ).loc main_arg2)) shapeCasts_S12288_S1x12288) := by
  have h1 : W3 m ρ c (Proc.devRef .tc main_v5) = (dat1 (F := Ideal) (V2 m ρ) c).arrAt 5 cfg1.N := W3_arr m ρ c 5
  rw [h1, Regions.fused_array (V2 m ρ) c]
  show resultRows (V2 m ρ c main_v0) (V2 m ρ c main_v1) (V2 m ρ c main_v2) (fun i => V2 m ρ c main_v4 i) (V2 m ρ c main_v3) = _
  rw [mid_rows, mid_scale, mid_shift, mid_bias]
  exact resultRows_congr_weight (mid_weight m ρ c)

/-- THE RESULT ARRAY at the last boundary: the three-axis result of the five arguments as launched. -/
theorem result_array : W4 m ρ c (Proc.devRef .tc main_v6)
    = result (m ((c : Thread nD τ).loc main_arg0)) (fun i => m ((c : Thread nD τ).loc main_arg1) i)
        (m ((c : Thread nD τ).loc main_arg2)) (m ((c : Thread nD τ).loc main_arg3)) (m ((c : Thread nD τ).loc main_arg4)) := by
  have h : W4 m ρ c (Proc.devRef .tc main_v6)
      = shapeCast S4x2048x12288 (W3 m ρ c (Proc.devRef .tc main_v5)) shapeCasts_S8192x12288_S4x2048x12288 := by
    show StableHlo.after hostOps2 (W3 m ρ c) (Proc.devRef .tc main_v6) = _
    after_results
    rfl
  rw [h, rows_array]
  exact result_of_rows _ _ _ _ _ _ _ _ _ _

end Cert.LayerNormLinear.KernelValue

end
-- ==== Proof.RefValue.lean ====
/-
  The reference program's result, read entry by entry.

  The reference computes, for every row `(b, s)` of the input, the row sum, the mean, the deviations, their squares'
  mean, the reciprocal root of that plus `ε`, the scaled and shifted normalised row, and then contracts it with every
  weight row and adds the bias. Read at one index each stage is the matching piece of the row-wise specification: the
  broadcasts only move coordinates, the host's sum with initial value `0` is the plain sum, and the host's quotient and
  reciprocal root are the extended reals' own.
-/
import proofs.«132008_j73375221285154_1_alg».proof.Proof.Gen.ReferenceIdeal.Run
import proofs.«132008_j73375221285154_1_alg».proof.Proof.Gen.ReferenceIdeal.Read
import proofs.«132008_j73375221285154_1_alg».proof.Proof.Spec

noncomputable section

namespace Cert.LayerNormLinear.RefValue

open Idealize.ShloMosaic Idealize.ShloMosaic.ValueIdx
open Cert.ReferenceIdeal Cert.ReferenceIdeal.Read Cert.LayerNormLinear

variable (x0 : (⟨S4x2048x4096, .f32⟩ : BufTy).Contents (Elt Ideal))
variable (x1 : (⟨S12288x4096, .f32⟩ : BufTy).Contents (Elt Ideal))
variable (x2 : (⟨S12288, .f32⟩ : BufTy).Contents (Elt Ideal))
variable (x3 x4 : (⟨S4096, .f32⟩ : BufTy).Contents (Elt Ideal))

/-! ## Where each broadcast and each sum reads its operand -/

theorem ix_v0 (b : Fin 4) (s : Fin 2048) (k : Fin 4096) : idx_main_v0 (ix2 b s) k = ix3 b s k :=
  funext fun a => Fin.ext (by match a with | ⟨0, _⟩ => rfl | ⟨1, _⟩ => rfl | ⟨2, _⟩ => rfl)
theorem ix_v7 (b : Fin 4) (s : Fin 2048) (k : Fin 4096) : idx_main_v7 (ix2 b s) k = ix3 b s k :=
  funext fun a => Fin.ext (by match a with | ⟨0, _⟩ => rfl | ⟨1, _⟩ => rfl | ⟨2, _⟩ => rfl)
theorem ix_v1 (b : Fin 4) (s : Fin 2048) (u : Fin 1) : idx_main_v1 (ix3 b s u) = ix2 b s :=
  funext fun a => Fin.ext (by match a with | ⟨0, _⟩ => rfl | ⟨1, _⟩ => rfl)
theorem ix_v8 (b : Fin 4) (s : Fin 2048) (u : Fin 1) : idx_main_v8 (ix3 b s u) = ix2 b s :=
  funext fun a => Fin.ext (by match a with | ⟨0, _⟩ => rfl | ⟨1, _⟩ => rfl)
theorem ix_v4 (b : Fin 4) (s : Fin 2048) (k : Fin 4096) : idx_main_v4 (ix3 b s k) = ix3 b s (0 : Fin 1) :=
  funext fun a => Fin.ext (by match a with | ⟨0, _⟩ => rfl | ⟨1, _⟩ => rfl | ⟨2, _⟩ => rfl)
theorem ix_v11 (b : Fin 4) (s : Fin 2048) (k : Fin 4096) : idx_main_v11 (ix3 b s k) = ix3 b s (0 : Fin 1) :=
  funext fun a => Fin.ext (by match a with | ⟨0, _⟩ => rfl | ⟨1, _⟩ => rfl | ⟨2, _⟩ => rfl)
theorem ix_v16 (b : Fin 4) (s : Fin 2048) (k : Fin 4096) : idx_main_v16 (ix3 b s k) = ix3 b s (0 : Fin 1) :=
  funext fun a => Fin.ext (by match a with | ⟨0, _⟩ => rfl | ⟨1, _⟩ => rfl | ⟨2, _⟩ => rfl)
theorem ix_v19 (b : Fin 4) (s : Fin 2048) (k : Fin 4096) : idx_main_v18 (idx_main_v19 (ix3 b s k)) = ix1 k :=
  funext fun a => Fin.ext (by match a with | ⟨0, _⟩ => rfl)
theorem ix_v22 (b : Fin 4) (s : Fin 2048) (k : Fin 4096) : idx_main_v21 (idx_main_v22 (ix3 b s k)) = ix1 k :=
  funext fun a => Fin.ext (by match a with | ⟨0, _⟩ => rfl)
theorem ix_v26 (b : Fin 4) (s : Fin 2048) (o : Fin 12288) : idx_main_v25 (idx_main_v26 (ix3 b s o)) = ix1 o :=
  funext fun a => Fin.ext (by match a with | ⟨0, _⟩ => rfl)
theorem ix_l24 (b : Fin 4) (s : Fin 2048) (o : Fin 12288) (k : Fin 4096) : lidx_main_v24 (ix3 b s o) k = ix3 b s k :=
  funext fun a => Fin.ext (by match a with | ⟨0, _⟩ => rfl | ⟨1, _⟩ => rfl | ⟨2, _⟩ => rfl)
theorem ix_r24 (b : Fin 4) (s : Fin 2048) (o : Fin 12288) (k : Fin 4096) : ridx_main_v24 (ix3 b s o) k = ix2 o k :=
  funext fun a => Fin.ext (by match a with | ⟨0, _⟩ => rfl | ⟨1, _⟩ => rfl)

/-! ## The stages, row by row -/

/-- The row of the input at `(b, s)`. -/
abbrev row (b : Fin 4) (s : Fin 2048) : Fin 4096 → EReal := fun k => x0 (ix3 b s k)

/-- The quotient of the row sum by 4096 is the row's mean. -/
theorem mean_eq (b : Fin 4) (s : Fin 2048) (u : Fin 1) : val_main_v3 (F := Ideal) x0 (ix3 b s u) = mean (row x0 b s) := by
  rw [val_main_v3_apply, val_main_v1_apply, val_main_v0_apply, val_main_v2_apply, val_main_cst_0_apply, val_main_cst_apply, ix_v1]
  simp only [ix_v0, Ideal.hostDivf_def, Ideal.ofBits_def, Ideal.ofBits_zero_f32, zero_add]
  rfl

/-- The input minus its broadcast mean is the deviation (first use, squared for the variance). -/
theorem centred_eq (b : Fin 4) (s : Fin 2048) (k : Fin 4096) : val_main_v5 (F := Ideal) x0 (ix3 b s k) = centred (row x0 b s) k := by
  rw [val_main_v5_apply, val_main_v4_apply, ix_v4, mean_eq]
  rfl

/-- The same subtraction again (second use, the one that is normalised). -/
theorem centred_eq' (b : Fin 4) (s : Fin 2048) (k : Fin 4096) : val_main_v12 (F := Ideal) x0 (ix3 b s k) = centred (row x0 b s) k := by
  rw [val_main_v12_apply, val_main_v11_apply, ix_v11, mean_eq]
  rfl

/-- The quotient of the sum of squared deviations by 4096 is the variance. -/
theorem variance_eq (b : Fin 4) (s : Fin 2048) (u : Fin 1) : val_main_v10 (F := Ideal) x0 (ix3 b s u) = variance (row x0 b s) := by
  rw [val_main_v10_apply, val_main_v8_apply, val_main_v7_apply, val_main_v9_apply, val_main_cst_2_apply, val_main_cst_1_apply, ix_v8]
  simp only [ix_v7, val_main_v6_apply, centred_eq, Ideal.hostDivf_def, Ideal.mulf_def, Ideal.ofBits_def, Ideal.ofBits_zero_f32, zero_add]
  rfl

/-- The host's reciprocal root of the variance plus `ε`. -/
theorem invStd_eq (b : Fin 4) (s : Fin 2048) (u : Fin 1) : val_main_v15 (F := Ideal) x0 (ix3 b s u) = invStd (row x0 b s) := by
  rw [val_main_v15_apply, val_main_v14_apply, variance_eq, val_main_v13_apply, val_main_cst_3_apply]
  simp only [Ideal.hostUnary_rsqrt_def, Ideal.addf_def, Ideal.ofBits_def]
  rfl

/-- The normalised row, scaled by `γ` and shifted by `β`. -/
theorem normed_eq (b : Fin 4) (s : Fin 2048) (k : Fin 4096) :
    val_main_v23 (F := Ideal) x0 x3 x4 (ix3 b s k) = normed (row x0 b s) (fun k => x3 (ix1 k)) (fun k => x4 (ix1 k)) k := by
  rw [val_main_v23_apply, val_main_v20_apply, val_main_v17_apply, centred_eq', val_main_v16_apply, ix_v16, invStd_eq,
    val_main_v19_apply, val_main_v18_apply, ix_v19, val_main_v22_apply, val_main_v21_apply, ix_v22]
  rfl

/-- The reference's result is the specification's whole-array function of its five arguments. -/
theorem result_eq : val_main_v27 (F := Ideal) x0 x1 x2 x3 x4 = result x0 x1 x2 x3 x4 := by
  funext i
  obtain ⟨b, s, o, rfl⟩ : ∃ (b : Fin 4) (s : Fin 2048) (o : Fin 12288), i = ix3 b s o := ⟨i 0, i 1, i 2, eq_ix3 i⟩
  rw [val_main_v27_apply, val_main_v24_apply, val_main_v26_apply, val_main_v25_apply, ix_v26]
  simp only [ix_l24, ix_r24, normed_eq]
  rfl

end Cert.LayerNormLinear.RefValue

end
-- ==== Proof.lean ====
/-
  Layer normalisation fused with a linear map, as a Pallas kernel in two passes, against its plain reference.

  The kernel program copies the weight matrix block by block (a change of float format, the identity on the extended
  reals), then, block by block over a 4 × 64 grid, normalises 128 input rows at a time — row sum, mean, deviations, mean of
  squares, reciprocal root of that plus `ε`, scale, shift — and contracts them with 3072 weight rows, adding the bias.
  The reference does the same arithmetic on whole arrays. Entry by entry both results are ONE expression on the extended
  reals (`Cert.LayerNormLinear.entry` of an input row, the scale and shift, a weight row and a bias entry): the divisor
  4096 and `ε` are the same words on both sides, the contraction runs over the whole row on both sides in the same
  order, and the tiling only says which grid point writes which entry. So no algebraic law and no finiteness is used.

  The three frames: the kernel programs' are the generated ones; the reference's is its generated run with the result
  dropped. The idealisation rewrote nothing, so `preserves` asks nothing. `algebraic`: the kernel program's run with its
  result array named (Proof/KernelRun.lean), that array as the specification's result of the arguments
  (Proof/KernelValue.lean over Proof/RegionValues.lean and Proof/FusedPayload.lean), and the reference's run at the same
  function (Proof/RefValue.lean).
-/
import proofs.«132008_j73375221285154_1_alg».proof.Defs
import proofs.«132008_j73375221285154_1_alg».proof.Proof.Gen.Kernel
import proofs.«132008_j73375221285154_1_alg».proof.Proof.Gen.Kernel.Frame
import proofs.«132008_j73375221285154_1_alg».proof.Proof.Gen.KernelIdeal
import proofs.«132008_j73375221285154_1_alg».proof.Proof.Gen.KernelIdeal.Frame
import proofs.«132008_j73375221285154_1_alg».proof.Proof.Gen.ReferenceIdeal
import proofs.«132008_j73375221285154_1_alg».proof.Proof.Gen.ReferenceIdeal.Run
import proofs.«132008_j73375221285154_1_alg».proof.Proof.Gen.ReferenceIdeal.Read
import proofs.«132008_j73375221285154_1_alg».proof.Proof.Gen.Pre_finite_inputs
import proofs.«132008_j73375221285154_1_alg».proof.Proof.KernelRun
import proofs.«132008_j73375221285154_1_alg».proof.Proof.KernelValue
import proofs.«132008_j73375221285154_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result arrays at the specification's result of the (agreeing) arguments. -/
theorem algebraic : Cert.algebraic_KernelIdeal_ReferenceIdeal := by
  intro m ρ m' ρ' _ hagree
  refine ⟨fun c => Cert.LayerNormLinear.result
      (m ((c.tc : Thread Cert.KernelIdeal.nD Cert.KernelIdeal.τ).loc Cert.KernelIdeal.main_arg0))
      (fun i => m ((c.tc : Thread Cert.KernelIdeal.nD Cert.KernelIdeal.τ).loc Cert.KernelIdeal.main_arg1) i)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.LayerNormLinear.KernelValue.result_array m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.LayerNormLinear.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
